-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S4096x4096 : Shape := ⟨2, ![4096, 4096]⟩
abbrev S16x1 : Shape := ⟨2, ![16, 1]⟩
abbrev S_ : Shape := ⟨0, ![]⟩

class Facts : Prop where
  slices_S16x1024_S16x1_0_1023 : S16x1024.Slices ![0, 1023] S16x1
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_

variable [Facts]

def fn {F : FTy → Type} [FloatOps F] (main_arg0 : IVec S16x1024 32) (main_arg1 : FVec F S4096x4096 .f32) : IVec S_ 1 :=
  let main_v0 : IVec S16x1 32 := (extractStridedSlice S16x1 ![0, 1023] · slices_S16x1024_S16x1_0_1023) main_arg0
  let main_v1 : FVec F S4096x4096 .f32 := Host.absf main_arg1
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_c_0 : IVec S_ 32 := constantI S_ 32 0#32
  let main_v5 : IVec S16x1 32 := broadcastInDim S16x1 ![] bcast_S_S16x1 main_c_0
  let main_v6 : IVec S16x1 1 := cmpi .sge main_v0 main_v5
  let main_c_1 : IVec S_ 32 := constantI S_ 32 4096#32
  let main_v7 : IVec S16x1 32 := broadcastInDim S16x1 ![] bcast_S_S16x1 main_c_1
  let main_v8 : IVec S16x1 1 := cmpi .slt main_v0 main_v7
  let main_v9 : IVec S16x1 1 := andi main_v6 main_v8
  let main_c_2 : IVec S_ 1 := constantI S_ 1 1#1
  let main_v10 : IVec S_ 1 := (fun x v => Host.reduce IntOp.andi x v reducesTo_S16x1_S_d0_1 h_S_) main_v9 main_c_2
  let main_v11 : IVec S_ 1 := andi main_v4 main_v10
  main_v11
-- ==== Kernel.lean ====
abbrev S16x1024 : Shape := ⟨2, ![16, 1024]⟩
abbrev S4096x4096 : Shape := ⟨2, ![4096, 4096]⟩
abbrev S16x1 : Shape := ⟨2, ![16, 1]⟩
abbrev S16 : Shape := ⟨1, ![16]⟩
abbrev S16x1x1024 : Shape := ⟨3, ![16, 1, 1024]⟩
abbrev S4096x1x4096 : Shape := ⟨3, ![4096, 1, 4096]⟩
abbrev S16x1x4096 : Shape := ⟨3, ![16, 1, 4096]⟩
abbrev S1x1x1024 : Shape := ⟨3, ![1, 1, 1024]⟩
abbrev S1x1x4096 : Shape := ⟨3, ![1, 1, 4096]⟩
abbrev S1 : Shape := ⟨1, ![1]⟩
abbrev S1x1024 : Shape := ⟨2, ![1, 1024]⟩
abbrev S1x4096 : Shape := ⟨2, ![1, 4096]⟩
abbrev S4096x1024 : Shape := ⟨2, ![4096, 1024]⟩
abbrev S1x1 : Shape := ⟨2, ![1, 1]⟩
abbrev S16x4096 : Shape := ⟨2, ![16, 4096]⟩

abbrev nBuf : Space → Nat
  | .hbm => 7
  | .vmem => 6
  | .smem => 1
  | _ => 0

abbrev bufTy : (tb : Table) → Fin (tcTables nBuf tb) → BufTy
  | .hbm, ⟨0, _⟩ => ⟨S16x1024, .i32⟩
  | .hbm, ⟨1, _⟩ => ⟨S4096x4096, .f32⟩
  | .hbm, ⟨2, _⟩ => ⟨S16x1, .i32⟩
  | .hbm, ⟨3, _⟩ => ⟨S16x1x1024, .i32⟩
  | .hbm, ⟨4, _⟩ => ⟨S4096x1x4096, .f32⟩
  | .hbm, ⟨5, _⟩ => ⟨S16x1x4096, .f32⟩
  | .hbm, ⟨6, _⟩ => ⟨S16x4096, .f32⟩
  | .local _ .vmem, ⟨0, _⟩ => ⟨S1x1x1024, .i32⟩
  | .local _ .vmem, ⟨1, _⟩ => ⟨S1x1x1024, .i32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .smem, ⟨0, _⟩ => ⟨S16, .i32⟩
  | _, _ => ⟨S16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16x1024_S16x1_0_1023 : S16x1024.Slices ![0, 1023] S16x1
  shapeCasts_S16x1_S16 : S16x1.ShapeCasts S16
  bcast_S16x1024_S16x1x1024_0_2 : S16x1024.BroadcastsInDim S16x1x1024 (![0, 2] : Fin 2 → Fin S16x1x1024.rank)
  bcast_S4096x4096_S4096x1x4096_0_2 : S4096x4096.BroadcastsInDim S4096x1x4096 (![0, 2] : Fin 2 → Fin S4096x1x4096.rank)
  numel1_S1 : S1.numel = 1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S4096x1024_d0_w32 : S4096x1024.Iotas .tc 32 [0]
  broadcasts_S1x1024_S4096x1024 : S1x1024.Broadcasts S4096x1024
  natLt_1_32 : 1 < 32
  bitsLt_bf16_f32 : FTy.bits .bf16 < FTy.bits .f32
  reduces_S1x1024_S1 : S1x1024.Reduces [1] S1
  shapeCasts_S1_S1x1 : S1.ShapeCasts S1x1
  broadcasts_S1x1_S1x1024 : S1x1.Broadcasts S1x1024
  shapeCasts_S1x4096_S1x1x4096 : S1x4096.ShapeCasts S1x1x4096
  shapeCasts_S16x1x4096_S16x4096 : S16x1x4096.ShapeCasts S16x4096
  dot_S1x4096_S4096x1024_S1x1024_1_0_0_1_n_n_wf : DotDims.WF S1x4096 S4096x1024 S1x1024 [1] [0] [0] [1] [] []
  dot_S1x1024_S4096x1024_S1x4096_1_1_0_0_n_n_wf : DotDims.WF S1x1024 S4096x1024 S1x4096 [1] [1] [0] [0] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S16x1x1024.size a
  hwx0_0 : ∀ i : grid0.Coords, EltTy.bits .i32 = 32 ∨ (Rect.block (s := S16x1x1024) S1x1x1024.size (cc0_transform_0 i) (hinb0_0 i)).WholeWords (EltTy.packing .i32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S16x1x4096.size a
  hwx0_2 : ∀ i : grid0.Coords, EltTy.bits .f32 = 32 ∨ (Rect.block (s := S16x1x4096) S1x1x4096.size (cc0_transform_2 i) (hinb0_2 i)).WholeWords (EltTy.packing .f32)

variable [Facts₀]

def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev spec0_0 : Pipeline.WinSpec sig grid0.rank :=
  Pipeline.WinSpec.ofSpec (Memref.whole main_v2) S1x1x1024.size reads0_0 false false 2 stage0_0 sem0_0 nbuf0_0 hstage0_0

abbrev spec0_1 : Pipeline.WinSpec sig grid0.rank :=
  Pipeline.WinSpec.ofSpec (Memref.whole main_v3) S1x1x4096.size reads0_1 false false 2 stage0_1 sem0_1 nbuf0_1 hstage0_1

abbrev spec0_2 : Pipeline.WinSpec sig grid0.rank :=
  Pipeline.WinSpec.ofSpec (Memref.whole main_v4) S1x1x4096.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1x4096.size a ≤ S4096x1x4096.size a), EltTy.bits .f32 = 32 ∨ (Rect.block (s := S4096x1x4096) S1x1x4096.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x1024 : Shape := ⟨2, ![16, 1024]⟩
abbrev S4096x4096 : Shape := ⟨2, ![4096, 4096]⟩
abbrev S16x1024x1 : Shape := ⟨3, ![16, 1024, 1]⟩
abbrev S1x1x4096 : Shape := ⟨3, ![1, 1, 4096]⟩
abbrev S16x1024x4096 : Shape := ⟨3, ![16, 1024, 4096]⟩
abbrev S16x1024x1024 : Shape := ⟨3, ![16, 1024, 1024]⟩
abbrev S_ : Shape := ⟨0, ![]⟩
abbrev S1024x1024 : Shape := ⟨2, ![1024, 1024]⟩
abbrev S1x1024x1024 : Shape := ⟨3, ![1, 1024, 1024]⟩
abbrev S16x1x4096 : Shape := ⟨3, ![16, 1, 4096]⟩
abbrev S16x4096 : Shape := ⟨2, ![16, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S4096x4096, .f32⟩
  | .hbm, ⟨2, _⟩ => ⟨S16x1024x1, .i32⟩
  | .hbm, ⟨3, _⟩ => ⟨S1x1x4096, .i32⟩
  | .hbm, ⟨4, _⟩ => ⟨S16x1024x4096, .i32⟩
  | .hbm, ⟨5, _⟩ => ⟨S16x1024x4096, .i32⟩
  | .hbm, ⟨6, _⟩ => ⟨S16x1024x4096, .i1⟩
  | .hbm, ⟨7, _⟩ => ⟨S16x1024x4096, .f32⟩
  | .hbm, ⟨8, _⟩ => ⟨S16x1024x4096, .f32⟩
  | .hbm, ⟨9, _⟩ => ⟨S16x1024x1024, .f32⟩
  | .hbm, ⟨10, _⟩ => ⟨S_, .i1⟩
  | .hbm, ⟨11, _⟩ => ⟨S1024x1024, .i1⟩
  | .hbm, ⟨12, _⟩ => ⟨S1024x1024, .i32⟩
  | .hbm, ⟨13, _⟩ => ⟨S_, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S_, .i1⟩
  | .hbm, ⟨19, _⟩ => ⟨S1024x1024, .i1⟩
  | .hbm, ⟨20, _⟩ => ⟨S1024x1024, .i1⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1x1024x1024, .f32⟩
  | .hbm, ⟨28, _⟩ => ⟨S16x1024x1024, .f32⟩
  | .hbm, ⟨29, _⟩ => ⟨S16x1024x1024, .f32⟩
  | .hbm, ⟨30, _⟩ => ⟨S_, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024x1, .f32⟩
  | .hbm, ⟨36, _⟩ => ⟨S16x1024x1024, .f32⟩
  | .hbm, ⟨37, _⟩ => ⟨S16x1024x1024, .f32⟩
  | .hbm, ⟨38, _⟩ => ⟨S16x1024x1024, .f32⟩
  | .hbm, ⟨39, _⟩ => ⟨S_, .f32⟩
  | .hbm, ⟨40, _⟩ => ⟨S16x1024, .f32⟩
  | .hbm, ⟨41, _⟩ => ⟨S16x1024x1, .f32⟩
  | .hbm, ⟨42, _⟩ => ⟨S16x1024x1024, .f32⟩
  | .hbm, ⟨43, _⟩ => ⟨S16x1024x1024, .f32⟩
  | .hbm, ⟨44, _⟩ => ⟨S16x1024x4096, .f32⟩
  | .hbm, ⟨45, _⟩ => ⟨S16x1x4096, .f32⟩
  | .hbm, ⟨46, _⟩ => ⟨S16x4096, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_call1_v0 : Ref sig .tc := ⟨.hbm, 12, rfl⟩
abbrev main_call1_c : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_c_0 : Ref sig .tc := ⟨.hbm, 18, rfl⟩
abbrev main_call1_v5 : Ref sig .tc := ⟨.hbm, 19, rfl⟩
abbrev main_v4 : Ref sig .tc := ⟨.hbm, 20, rfl⟩
abbrev main_cst : Ref sig .tc := ⟨.hbm, 21, rfl⟩
abbrev main_cst_0 : Ref sig .tc := ⟨.hbm, 22, rfl⟩
abbrev main_call2_v0 : Ref sig .tc := ⟨.hbm, 23, rfl⟩
abbrev main_call2_v1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]

class Facts₀ : Prop where
  bcast_S16x1024_S16x1024x1_0_1 : S16x1024.BroadcastsInDim S16x1024x1 (![0, 1] : Fin 2 → Fin S16x1024x1.rank)
  bcast_S16x1024x1_S16x1024x4096_0_1_2 : S16x1024x1.BroadcastsInDim S16x1024x4096 (![0, 1, 2] : Fin 3 → Fin S16x1024x4096.rank)
  bcast_S1x1x4096_S16x1024x4096_0_1_2 : S1x1x4096.BroadcastsInDim S16x1024x4096 (![0, 1, 2] : Fin 3 → Fin S16x1024x4096.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024x1_S16x1024x1024_0_1_2 : S16x1024x1.BroadcastsInDim S16x1024x1024 (![0, 1, 2] : Fin 3 → Fin S16x1024x1024.rank)
  slices_S16x1024x4096_S16x1x4096_0_1023_0 : S16x1024x4096.Slices ![0, 1023, 0] S16x1x4096
  shapeCasts_S16x1x4096_S16x4096 : S16x1x4096.ShapeCasts S16x4096
  dot_S16x1024x4096_S4096x4096_S16x1024x4096_2_0_01_1_n_n_wf : DotDims.WF S16x1024x4096 S4096x4096 S16x1024x4096 [2] [0] [0, 1] [1] [] []
  dot_S16x1024x4096_S16x1024x4096_S16x1024x1024_2_2_1_1_0_0_wf : DotDims.WF S16x1024x4096 S16x1024x4096 S16x1024x1024 [2] [2] [1] [1] [0] [0]
  dot_S16x1024x1024_S16x1024x4096_S16x1024x4096_2_1_1_2_0_0_wf : DotDims.WF S16x1024x1024 S16x1024x4096 S16x1024x4096 [2] [1] [1] [2] [0] [0]

variable [Facts₀]

def dot_S16x1024x4096_S4096x4096_S16x1024x4096_2_0_01_1_n_n : DotDims S16x1024x4096 S4096x4096 S16x1024x4096 where
  lhsContracting := [2]
  rhsContracting := [0]
  lhsNonContracting := [0, 1]
  rhsNonContracting := [1]
  lhsBatch := []
  rhsBatch := []
  wf := dot_S16x1024x4096_S4096x4096_S16x1024x4096_2_0_01_1_n_n_wf
def dot_S16x1024x4096_S16x1024x4096_S16x1024x1024_2_2_1_1_0_0 : DotDims S16x1024x4096 S16x1024x4096 S16x1024x1024 where
  lhsContracting := [2]
  rhsContracting := [2]
  lhsNonContracting := [1]
  rhsNonContracting := [1]
  lhsBatch := [0]
  rhsBatch := [0]
  wf := dot_S16x1024x4096_S16x1024x4096_S16x1024x1024_2_2_1_1_0_0_wf
def dot_S16x1024x1024_S16x1024x4096_S16x1024x4096_2_1_1_2_0_0 : DotDims S16x1024x1024 S16x1024x4096 S16x1024x4096 where
  lhsContracting := [2]
  rhsContracting := [1]
  lhsNonContracting := [1]
  rhsNonContracting := [2]
  lhsBatch := [0]
  rhsBatch := [0]
  wf := dot_S16x1024x1024_S16x1024x4096_S16x1024x4096_2_1_1_2_0_0_wf

class Facts : Prop extends Facts₀ where

variable [Facts]
-- ==== Proof.OkOfPreBits.lean ====
/-
  The pipeline's side condition from the precondition, for the kernel as printed.  The prefetched table is
  the last column of the token array (a slice, then a reshape); the precondition says each of its sixteen
  words lies in [0, 4096) as a signed number, so as an unsigned row index it is below 4096 and the block
  of `R` it names lies inside `R`.
-/
import proofs.«406636_j52055003628298_3_alg».proof.Defs
import proofs.«406636_j52055003628298_3_alg».proof.Proof.Gen.Kernel.Frame
import proofs.«406636_j52055003628298_3_alg».proof.Proof.Gen.Pre_finite_inputs
import Idealize.ShloMosaic.Lib.ValueIdx
import Idealize.ShloMosaic.PureOps.BitExact
import Idealize.ShloMosaic.Lib.ReduceAll
import Idealize.ShloMosaic.Lib.StableHlo.Predicate
import Idealize.ShloMosaic.Lib.StableHlo.Run
import Idealize.ShloMosaic.Lib.Pipeline.Value

set_option maxRecDepth 16384

noncomputable section

namespace Cert.LastRowAttn.OkBits

open Cert.Kernel Cert.Kernel.Gen
open Idealize.ShloMosaic Idealize.ShloMosaic.TcCoe Idealize.ShloMosaic.ValueIdx Idealize.SL.Sem

variable (m : (ℓ : Loc nD τ sig) → Buf (Elt Bits) ℓ)

/-- The table as the host operations before the region leave it: the last column of the token array
    (a slice), its unit axis dropped (a reshape). -/
theorem tbl_eq :
    (tbl m 0 : S16.Idx → BitVec 32)
      = shapeCast S16 (extractStridedSlice S16x1 ![0, 1023]
          (m (((0 : Dev nD) : Thread nD τ).loc main_arg0) : S16x1024.Idx → BitVec 32)
          Facts₀.slices_S16x1024_S16x1_0_1023) Facts₀.shapeCasts_S16x1_S16 := by
  unfold tbl
  show V m 0 main_v1 = _
  unfold V V0
  simp only [hostOps0, List.flatten_cons, List.flatten_nil, List.append_nil]
  after_results
  rfl

/-- The table's word for batch row `i` is that row's last token. -/
theorem tbl_apply (i : S16.Idx) :
    tbl m 0 i = m (((0 : Dev nD) : Thread nD τ).loc main_arg0) (ix2 (i 0) (1023 : Fin 1024)) := by
  refine (congrFun (tbl_eq m) i).trans ?_
  -- position i of the [16] table is position (i, 0) of the [16, 1] column
  refine (shapeCast_apply _ _ i (ix2 (i 0) (0 : Fin 1)) ?_).trans ?_
  · rw [Shape.rowMajor_val_two, Shape.rowMajor_val_one]
    show (i 0).val * 1 + 0 = (i 0).val
    omega
  -- and position (i, 0) of the column cut at offsets (0, 1023) is position (i, 1023) of the array
  · refine extractStridedSlice_apply _ _ _ _ (ix2 (i 0) (1023 : Fin 1024)) (fun a => ?_)
    match a with
    | ⟨0, _⟩ => show (i 0).val = 0 + (i 0).val; omega
    | ⟨1, _⟩ => show 1023 = 1023 + 0; rfl

/-- A word that lies in [0, n) as a signed number is below n as an unsigned one (n below 2³¹): not
    negative, its sign bit is clear, so its signed and unsigned values are the same number. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  have h0' : (0#32 : BitVec 32).sle w = true := (StableHlo.Predicate.ofBool_eq_one_iff _).1 h0
  have h1' : w.slt (BitVec.ofNat 32 n) = true := (StableHlo.Predicate.ofBool_eq_one_iff _).1 h1
  simp only [BitVec.sle, BitVec.slt, decide_eq_true_eq, StableHlo.Predicate.toInt_ofNat_small n hn] at h0' h1'
  have hz : (0#32 : BitVec 32).toInt = 0 := by decide
  rw [hz] at h0'
  rw [BitVec.toInt_eq_toNat_cond] at h0' h1'
  have hlt := w.isLt
  split at h0' <;> omega

/-- Under the precondition every last token, read unsigned, is below 4096. -/
theorem last_lt (h : Cert.Pre_Kernel m) (b : Fin 16) :
    (m (((0 : Dev nD) : Thread nD τ).loc main_arg0) (ix2 b (1023 : Fin 1024))).toNat < 4096 := by
  have e := congrFun (h 0) ValueIdx.ix0
  dsimp only [Cert.Pre_finite_inputs.fn] at e
  -- the conjunction's second half is the `all` over the [16, 1] column of range checks
  have e2 := (IntOp.andi_eq_one.1 e).2
  -- the scalar shape has one index, so the `all` being 1 there says every row's check is 1
  haveI : Subsingleton Cert.Pre_finite_inputs.S_.Idx := ⟨fun a b => funext fun d => d.elim0⟩
  have e3 := Host.reduce_andi_all _ _ _ _ _ e2 (ix2 b (0 : Fin 1))
  -- at row b: 0 ≤ the column's word, and the column's word < 4096, as signed numbers
  obtain ⟨h0, h1⟩ := IntOp.andi_eq_one.1 e3
  have hlt := toNat_lt_of_signed _ 4096 (by decide) h0 h1
  -- position (b, 0) of the column cut at offsets (0, 1023) is position (b, 1023) of the array
  have hs := extractStridedSlice_apply (![0, 1023] : Fin 2 → Nat)
    (m (((0 : Dev nD) : Thread nD τ).loc main_arg0) : S16x1024.Idx → BitVec 32)
    Cert.Pre_finite_inputs.Facts.slices_S16x1024_S16x1_0_1023 (ix2 b (0 : Fin 1)) (ix2 b (1023 : Fin 1024)) (fun a => by
      match a with
      | ⟨0, _⟩ => show b.val = 0 + b.val; omega
      | ⟨1, _⟩ => show 1023 = 1023 + 0; rfl)
  exact lt_of_eq_of_lt (congrArg BitVec.toNat hs.symm) hlt

/-- A block of one row of `R` at a row index below 4096 lies inside `R`. -/
theorem block_inside (w : BitVec 32) (hw : w.toNat < 4096) (a : Fin 3) :
    ((![w.toNat, (0#32 : BitVec 32).toNat, (0#32 : BitVec 32).toNat] : Fin 3 → Nat) a + 1) * S1x1x4096.size a
      ≤ S4096x1x4096.size a := by
  match a with
  | ⟨0, _⟩ => show (w.toNat + 1) * 1 ≤ 4096; omega
  | ⟨1, _⟩ => show (0 + 1) * 1 ≤ 1; omega
  | ⟨2, _⟩ => show (0 + 1) * 4096 ≤ 4096; omega

/-- The side condition of the table-indexed window. -/
theorem ok_of_pre (h : Cert.Pre_Kernel m) : Ok m := by
  intro i
  -- whichever index of the table the index map reads, the word there is some row's last token
  have hword : ∀ x : S16.Idx, (tbl m 0 x).toNat < 4096 := fun x =>
    (congrArg BitVec.toNat (tbl_apply m x)).trans_lt (last_lt m h (x 0))
  exact ⟨fun a => block_inside _ (hword _) a, Or.inl rfl⟩

end Cert.LastRowAttn.OkBits

end
-- ==== Proof.OkOfPreIdeal.lean ====
/-
  The pipeline's side condition from the precondition, for the idealized kernel.  The prefetched table is
  the last column of the token array (a slice, then a reshape); the precondition says each of its sixteen
  words lies in [0, 4096) as a signed number, so as an unsigned row index it is below 4096 and the block
  of `R` it names lies inside `R`.
-/
import proofs.«406636_j52055003628298_3_alg».proof.Defs
import proofs.«406636_j52055003628298_3_alg».proof.Proof.Gen.KernelIdeal.Frame
import proofs.«406636_j52055003628298_3_alg».proof.Proof.Gen.Pre_finite_inputs
import Idealize.ShloMosaic.Lib.ValueIdx
import Idealize.ShloMosaic.Lib.ReduceAll
import Idealize.ShloMosaic.Lib.StableHlo.Predicate
import Idealize.ShloMosaic.Lib.StableHlo.Run
import Idealize.ShloMosaic.Lib.Pipeline.Value

set_option maxRecDepth 16384

noncomputable section

namespace Cert.LastRowAttn.OkIdeal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The table as the host operations before the region leave it: the last column of the token array
    (a slice), its unit axis dropped (a reshape). -/
theorem tbl_eq :
    (tbl m 0 : S16.Idx → BitVec 32)
      = shapeCast S16 (extractStridedSlice S16x1 ![0, 1023]
          (m (((0 : Dev nD) : Thread nD τ).loc main_arg0) : S16x1024.Idx → BitVec 32)
          Facts₀.slices_S16x1024_S16x1_0_1023) Facts₀.shapeCasts_S16x1_S16 := by
  unfold tbl
  show V m 0 main_v1 = _
  unfold V V0
  simp only [hostOps0, List.flatten_cons, List.flatten_nil, List.append_nil]
  after_results
  rfl

/-- The table's word for batch row `i` is that row's last token. -/
theorem tbl_apply (i : S16.Idx) :
    tbl m 0 i = m (((0 : Dev nD) : Thread nD τ).loc main_arg0) (ix2 (i 0) (1023 : Fin 1024)) := by
  refine (congrFun (tbl_eq m) i).trans ?_
  -- position i of the [16] table is position (i, 0) of the [16, 1] column
  refine (shapeCast_apply _ _ i (ix2 (i 0) (0 : Fin 1)) ?_).trans ?_
  · rw [Shape.rowMajor_val_two, Shape.rowMajor_val_one]
    show (i 0).val * 1 + 0 = (i 0).val
    omega
  -- and position (i, 0) of the column cut at offsets (0, 1023) is position (i, 1023) of the array
  · refine extractStridedSlice_apply _ _ _ _ (ix2 (i 0) (1023 : Fin 1024)) (fun a => ?_)
    match a with
    | ⟨0, _⟩ => show (i 0).val = 0 + (i 0).val; omega
    | ⟨1, _⟩ => show 1023 = 1023 + 0; rfl

/-- A word that lies in [0, n) as a signed number is below n as an unsigned one (n below 2³¹): not
    negative, its sign bit is clear, so its signed and unsigned values are the same number. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  have h0' : (0#32 : BitVec 32).sle w = true := (StableHlo.Predicate.ofBool_eq_one_iff _).1 h0
  have h1' : w.slt (BitVec.ofNat 32 n) = true := (StableHlo.Predicate.ofBool_eq_one_iff _).1 h1
  simp only [BitVec.sle, BitVec.slt, decide_eq_true_eq, StableHlo.Predicate.toInt_ofNat_small n hn] at h0' h1'
  have hz : (0#32 : BitVec 32).toInt = 0 := by decide
  rw [hz] at h0'
  rw [BitVec.toInt_eq_toNat_cond] at h0' h1'
  have hlt := w.isLt
  split at h0' <;> omega

/-- Under the precondition every last token, read unsigned, is below 4096. -/
theorem last_lt (h : Cert.Pre_KernelIdeal m) (b : Fin 16) :
    (m (((0 : Dev nD) : Thread nD τ).loc main_arg0) (ix2 b (1023 : Fin 1024))).toNat < 4096 := by
  have e := congrFun (h 0) ValueIdx.ix0
  dsimp only [Cert.Pre_finite_inputs.fn] at e
  -- the conjunction's second half is the `all` over the [16, 1] column of range checks
  have e2 := (IntOp.andi_eq_one.1 e).2
  -- the scalar shape has one index, so the `all` being 1 there says every row's check is 1
  haveI : Subsingleton Cert.Pre_finite_inputs.S_.Idx := ⟨fun a b => funext fun d => d.elim0⟩
  have e3 := Host.reduce_andi_all _ _ _ _ _ e2 (ix2 b (0 : Fin 1))
  -- at row b: 0 ≤ the column's word, and the column's word < 4096, as signed numbers
  obtain ⟨h0, h1⟩ := IntOp.andi_eq_one.1 e3
  have hlt := toNat_lt_of_signed _ 4096 (by decide) h0 h1
  -- position (b, 0) of the column cut at offsets (0, 1023) is position (b, 1023) of the array
  have hs := extractStridedSlice_apply (![0, 1023] : Fin 2 → Nat)
    (m (((0 : Dev nD) : Thread nD τ).loc main_arg0) : S16x1024.Idx → BitVec 32)
    Cert.Pre_finite_inputs.Facts.slices_S16x1024_S16x1_0_1023 (ix2 b (0 : Fin 1)) (ix2 b (1023 : Fin 1024)) (fun a => by
      match a with
      | ⟨0, _⟩ => show b.val = 0 + b.val; omega
      | ⟨1, _⟩ => show 1023 = 1023 + 0; rfl)
  exact lt_of_eq_of_lt (congrArg BitVec.toNat hs.symm) hlt

/-- A block of one row of `R` at a row index below 4096 lies inside `R`. -/
theorem block_inside (w : BitVec 32) (hw : w.toNat < 4096) (a : Fin 3) :
    ((![w.toNat, (0#32 : BitVec 32).toNat, (0#32 : BitVec 32).toNat] : Fin 3 → Nat) a + 1) * S1x1x4096.size a
      ≤ S4096x1x4096.size a := by
  match a with
  | ⟨0, _⟩ => show (w.toNat + 1) * 1 ≤ 4096; omega
  | ⟨1, _⟩ => show (0 + 1) * 1 ≤ 1; omega
  | ⟨2, _⟩ => show (0 + 1) * 4096 ≤ 4096; omega

/-- The side condition of the table-indexed window. -/
theorem ok_of_pre (h : Cert.Pre_KernelIdeal m) : Ok m := by
  intro i
  -- whichever index of the table the index map reads, the word there is some row's last token
  have hword : ∀ x : S16.Idx, (tbl m 0 x).toNat < 4096 := fun x =>
    (congrArg BitVec.toNat (tbl_apply m x)).trans_lt (last_lt m h (x 0))
  exact ⟨fun a => block_inside _ (hword _) a, Or.inl rfl⟩

end Cert.LastRowAttn.OkIdeal

end
-- ==== Proof.Spec.lean ====
/-
  The mathematics both programs compute, stated once over plain index types.

  Per batch row b the tokens tok(b, ·) are read as one-hot columns: hot t w is 1 when the word t is the
  label w and 0 otherwise (a word that is no label in [0, 4096) is hot nowhere).  The last token's word
  selects a row of R (rowSel: the one-hot product with R, which for a word in range is R's row at that
  label: rowSel_of_lt).  The scores of the last query position against every key position m are the
  contraction of that row with the key's one-hot column; they are normalised by a softmax over m (the
  row maximum subtracted before the exponential); and the result at label w is the total attention of
  the positions whose token is w.
-/
import Idealize.ShloMosaic.PureOps.Ideal
import Idealize.ShloMosaic.PureOps.Ideal.Laws
import Idealize.ShloMosaic.Lib.ValueIdx

noncomputable section

namespace Cert.LastRowAttn

open Idealize.ShloMosaic Idealize.ShloMosaic.ValueIdx

abbrev STok : Shape := ⟨2, ![16, 1024]⟩
abbrev SR : Shape := ⟨2, ![4096, 4096]⟩
abbrev SOut : Shape := ⟨2, ![16, 4096]⟩

/-- The one-hot entry of the token word `t` at label `w`. -/
def hot (t : BitVec 32) (w : Fin 4096) : EReal := if t = BitVec.ofNat 32 w.val then 1 else 0

/-- The row of `R` the word `t` selects, as the product of its one-hot row with `R`. -/
def rowSel (R : SR.Idx → EReal) (t : BitVec 32) (w : Fin 4096) : EReal := ∑ v : Fin 4096, hot t v * R (ix2 v w)

/-- The score of key position `m`: the selected row contracted with the key token's one-hot column. -/
def scores (tok : Fin 1024 → BitVec 32) (r : Fin 4096 → EReal) (m : Fin 1024) : EReal := ∑ w : Fin 4096, r w * hot (tok m) w

/-- The maximum of a row of scores (from the bottom element). -/
def rowMax (s : Fin 1024 → EReal) : EReal := (Finset.univ : Finset (Fin 1024)).fold max ⊥ s

/-- The softmax of a row of scores, the row maximum subtracted first. -/
def softmaxRow (s : Fin 1024 → EReal) (m : Fin 1024) : EReal :=
  Ideal.div (Ideal.exp (s m - rowMax s)) (∑ k : Fin 1024, Ideal.exp (s k - rowMax s))

/-- The attention weights gathered by label: the total weight of the positions whose token is `w`. -/
def mix (tok : Fin 1024 → BitVec 32) (a : Fin 1024 → EReal) (w : Fin 4096) : EReal := ∑ m : Fin 1024, a m * hot (tok m) w

/-- One batch row's result from its tokens and the selected row of `R`. -/
def lastRow (tok : Fin 1024 → BitVec 32) (r : Fin 4096 → EReal) : Fin 4096 → EReal := mix tok (softmaxRow (scores tok r))

/-- The whole result: row `b` from the tokens of row `b` and the row of `R` its last token selects. -/
def G (tok : STok.Idx → BitVec 32) (R : SR.Idx → EReal) : SOut.Idx → EReal := fun j =>
  lastRow (fun m => tok (ix2 (j 0) m)) (rowSel R (tok (ix2 (j 0) (1023 : Fin 1024)))) (j 1)

/-- A word below 4096 is hot exactly at its own label. -/
theorem hot_eq_ite (t : BitVec 32) (h : t.toNat < 4096) (v : Fin 4096) : hot t v = if v = ⟨t.toNat, h⟩ then 1 else 0 := by
  unfold hot
  by_cases hv : v = ⟨t.toNat, h⟩
  · subst hv
    rw [if_pos rfl, if_pos]
    exact (BitVec.ofNat_toNat 32 t).symm ▸ (by simp)
  · rw [if_neg hv, if_neg]
    intro e
    apply hv
    apply Fin.ext
    have := congrArg BitVec.toNat e
    rw [BitVec.toNat_ofNat] at this
    have hv4 := v.isLt
    show v.val = t.toNat
    omega

/-- For a word in range the one-hot product selects that row of `R`. -/
theorem rowSel_of_lt (R : SR.Idx → EReal) (t : BitVec 32) (h : t.toNat < 4096) (w : Fin 4096) :
    rowSel R t w = R (ix2 (⟨t.toNat, h⟩ : Fin 4096) w) := by
  unfold rowSel
  rw [Finset.sum_eq_single (⟨t.toNat, h⟩ : Fin 4096)]
  · rw [hot_eq_ite t h, if_pos rfl, one_mul]
  · intro v _ hv
    rw [hot_eq_ite t h, if_neg hv, zero_mul]
  · intro hn; exact absurd (Finset.mem_univ _) hn

end Cert.LastRowAttn

end
-- ==== Proof.PayloadValue.lean ====
/-
  The kernel body's stored value, read at one label: from the token block and the block of `R` the body
  loads, the value it stores at label `w` is the batch row's result (`lastRow`) of those tokens and that row.

  The body builds the one-hot matrix of the tokens (labels down, positions across) by comparing a label
  counter with the tokens; its first product contracts the row of `R` with each position's one-hot column
  (the scores), the lane reductions and the keepdims broadcasts make the softmax of that row, and its
  second product contracts the softmax with each label's one-hot ROW (the attention gathered by label).
-/
import proofs.«406636_j52055003628298_3_alg».proof.Proof.Gen.KernelIdeal.Skeleton
import proofs.«406636_j52055003628298_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.LastRowAttn.Payload

open Idealize.ShloMosaic Idealize.ShloMosaic.ValueIdx Cert.LastRowAttn
open Cert.KernelIdeal Cert.KernelIdeal.Gen

/-! ## The two products read at an index -/

theorem lhs_scores_0 (i : S1x1024.Idx) (q : dot_S1x4096_S4096x1024_S1x1024_1_0_0_1_n_n.contr.Idx) :
    (dot_S1x4096_S4096x1024_S1x1024_1_0_0_1_n_n.lhsIdx i q 0).val = (i 0).val := by
  unfold DotDims.lhsIdx
  rw [dif_neg (show ¬(0 : Fin S1x4096.rank) ∈ dot_S1x4096_S4096x1024_S1x1024_1_0_0_1_n_n.lhsBatch by decide), dif_pos (show (0 : Fin S1x4096.rank) ∈ dot_S1x4096_S4096x1024_S1x1024_1_0_0_1_n_n.lhsNonContracting by decide)]
  rfl
theorem lhs_scores_1 (i : S1x1024.Idx) (q : dot_S1x4096_S4096x1024_S1x1024_1_0_0_1_n_n.contr.Idx) :
    (dot_S1x4096_S4096x1024_S1x1024_1_0_0_1_n_n.lhsIdx i q 1).val = (q ⟨0, by decide⟩).val :=
  dot_S1x4096_S4096x1024_S1x1024_1_0_0_1_n_n.lhsIdx_val_of_single rfl i q
theorem rhs_scores_0 (i : S1x1024.Idx) (q : dot_S1x4096_S4096x1024_S1x1024_1_0_0_1_n_n.contr.Idx) :
    (dot_S1x4096_S4096x1024_S1x1024_1_0_0_1_n_n.rhsIdx i q 0).val = (q ⟨0, by decide⟩).val :=
  dot_S1x4096_S4096x1024_S1x1024_1_0_0_1_n_n.rhsIdx_val_of_single rfl i q
theorem rhs_scores_1 (i : S1x1024.Idx) (q : dot_S1x4096_S4096x1024_S1x1024_1_0_0_1_n_n.contr.Idx) :
    (dot_S1x4096_S4096x1024_S1x1024_1_0_0_1_n_n.rhsIdx i q 1).val = (i 1).val := by
  unfold DotDims.rhsIdx
  rw [dif_neg (show ¬(1 : Fin S4096x1024.rank) ∈ dot_S1x4096_S4096x1024_S1x1024_1_0_0_1_n_n.rhsBatch by decide), dif_pos (show (1 : Fin S4096x1024.rank) ∈ dot_S1x4096_S4096x1024_S1x1024_1_0_0_1_n_n.rhsNonContracting by decide)]
  rfl

/-- The first product at key position `m`: the row against column `m` of the right operand. -/
theorem scores_matmul_apply (lhs : FVec Ideal S1x4096 .bf16) (rhs : FVec Ideal S4096x1024 .bf16) (m : Fin 1024) :
    matmul dot_S1x4096_S4096x1024_S1x1024_1_0_0_1_n_n none lhs rhs (constant (F := Ideal) S1x1024 .f32 0x00000000#32) (ix2 (0 : Fin 1) m)
      = ∑ k : Fin 4096, lhs (ix2 (0 : Fin 1) k) * rhs (ix2 k m) := by
  simp only [matmul]
  rw [Ideal.matmul_constant_zero_apply, ← Equiv.sum_comp (ValueIdx.contrEquiv1 dot_S1x4096_S4096x1024_S1x1024_1_0_0_1_n_n 4096 rfl rfl).symm]
  refine Finset.sum_congr rfl fun k _ => ?_
  have hk := ValueIdx.contrEquiv1_symm_val dot_S1x4096_S4096x1024_S1x1024_1_0_0_1_n_n 4096 rfl rfl k
  have el : dot_S1x4096_S4096x1024_S1x1024_1_0_0_1_n_n.lhsIdx (ix2 (0 : Fin 1) m) ((ValueIdx.contrEquiv1 dot_S1x4096_S4096x1024_S1x1024_1_0_0_1_n_n 4096 rfl rfl).symm k) = ix2 (0 : Fin 1) k := funext fun a => Fin.ext (by
    match a with
    | ⟨0, _⟩ => exact lhs_scores_0 _ _
    | ⟨1, _⟩ => exact (lhs_scores_1 _ _).trans hk)
  have er : dot_S1x4096_S4096x1024_S1x1024_1_0_0_1_n_n.rhsIdx (ix2 (0 : Fin 1) m) ((ValueIdx.contrEquiv1 dot_S1x4096_S4096x1024_S1x1024_1_0_0_1_n_n 4096 rfl rfl).symm k) = ix2 k m := funext fun a => Fin.ext (by
    match a with
    | ⟨0, _⟩ => exact (rhs_scores_0 _ _).trans hk
    | ⟨1, _⟩ => exact rhs_scores_1 _ _)
  rw [el, er]

theorem lhs_mix_0 (i : S1x4096.Idx) (q : dot_S1x1024_S4096x1024_S1x4096_1_1_0_0_n_n.contr.Idx) :
    (dot_S1x1024_S4096x1024_S1x4096_1_1_0_0_n_n.lhsIdx i q 0).val = (i 0).val := by
  unfold DotDims.lhsIdx
  rw [dif_neg (show ¬(0 : Fin S1x1024.rank) ∈ dot_S1x1024_S4096x1024_S1x4096_1_1_0_0_n_n.lhsBatch by decide), dif_pos (show (0 : Fin S1x1024.rank) ∈ dot_S1x1024_S4096x1024_S1x4096_1_1_0_0_n_n.lhsNonContracting by decide)]
  rfl
theorem lhs_mix_1 (i : S1x4096.Idx) (q : dot_S1x1024_S4096x1024_S1x4096_1_1_0_0_n_n.contr.Idx) :
    (dot_S1x1024_S4096x1024_S1x4096_1_1_0_0_n_n.lhsIdx i q 1).val = (q ⟨0, by decide⟩).val :=
  dot_S1x1024_S4096x1024_S1x4096_1_1_0_0_n_n.lhsIdx_val_of_single rfl i q
theorem rhs_mix_0 (i : S1x4096.Idx) (q : dot_S1x1024_S4096x1024_S1x4096_1_1_0_0_n_n.contr.Idx) :
    (dot_S1x1024_S4096x1024_S1x4096_1_1_0_0_n_n.rhsIdx i q 0).val = (i 1).val := by
  unfold DotDims.rhsIdx
  rw [dif_neg (show ¬(0 : Fin S4096x1024.rank) ∈ dot_S1x1024_S4096x1024_S1x4096_1_1_0_0_n_n.rhsBatch by decide), dif_pos (show (0 : Fin S4096x1024.rank) ∈ dot_S1x1024_S4096x1024_S1x4096_1_1_0_0_n_n.rhsNonContracting by decide)]
  rfl
theorem rhs_mix_1 (i : S1x4096.Idx) (q : dot_S1x1024_S4096x1024_S1x4096_1_1_0_0_n_n.contr.Idx) :
    (dot_S1x1024_S4096x1024_S1x4096_1_1_0_0_n_n.rhsIdx i q 1).val = (q ⟨0, by decide⟩).val :=
  dot_S1x1024_S4096x1024_S1x4096_1_1_0_0_n_n.rhsIdx_val_of_single rfl i q

/-- The second product at label `w`: the row against ROW `w` of the right operand (both contract their second axis). -/
theorem mix_matmul_apply (lhs : FVec Ideal S1x1024 .bf16) (rhs : FVec Ideal S4096x1024 .bf16) (w : Fin 4096) :
    matmul dot_S1x1024_S4096x1024_S1x4096_1_1_0_0_n_n none lhs rhs (constant (F := Ideal) S1x4096 .f32 0x00000000#32) (ix2 (0 : Fin 1) w)
      = ∑ k : Fin 1024, lhs (ix2 (0 : Fin 1) k) * rhs (ix2 w k) := by
  simp only [matmul]
  rw [Ideal.matmul_constant_zero_apply, ← Equiv.sum_comp (ValueIdx.contrEquiv1 dot_S1x1024_S4096x1024_S1x4096_1_1_0_0_n_n 1024 rfl rfl).symm]
  refine Finset.sum_congr rfl fun k _ => ?_
  have hk := ValueIdx.contrEquiv1_symm_val dot_S1x1024_S4096x1024_S1x4096_1_1_0_0_n_n 1024 rfl rfl k
  have el : dot_S1x1024_S4096x1024_S1x4096_1_1_0_0_n_n.lhsIdx (ix2 (0 : Fin 1) w) ((ValueIdx.contrEquiv1 dot_S1x1024_S4096x1024_S1x4096_1_1_0_0_n_n 1024 rfl rfl).symm k) = ix2 (0 : Fin 1) k := funext fun a => Fin.ext (by
    match a with
    | ⟨0, _⟩ => exact lhs_mix_0 _ _
    | ⟨1, _⟩ => exact (lhs_mix_1 _ _).trans hk)
  have er : dot_S1x1024_S4096x1024_S1x4096_1_1_0_0_n_n.rhsIdx (ix2 (0 : Fin 1) w) ((ValueIdx.contrEquiv1 dot_S1x1024_S4096x1024_S1x4096_1_1_0_0_n_n 1024 rfl rfl).symm k) = ix2 w k := funext fun a => Fin.ext (by
    match a with
    | ⟨0, _⟩ => exact rhs_mix_0 _ _
    | ⟨1, _⟩ => exact (rhs_mix_1 _ _).trans hk)
  rw [el, er]

/-! ## The one-hot entries -/

/-- Comparing the label's word with the token's word, widened and converted, is the one-hot entry. -/
theorem onehot_word (t : BitVec 32) (w : Fin 4096) :
    (FloatOps.sitofp (F := Ideal) .f32 ((IntOp.cmpi .eq (BitVec.ofNat 32 w.val) t).setWidth 32) : EReal) = hot t w := by
  unfold hot
  show ((((IntOp.cmpi .eq (BitVec.ofNat 32 w.val) t).setWidth 32).toInt : ℝ) : EReal) = _
  by_cases h : t = BitVec.ofNat 32 w.val
  · rw [if_pos h, ← h]
    have e : IntOp.cmpi .eq t t = 1#1 := by simp [IntOp.cmpi]
    rw [e]
    have e1 : ((1#1 : BitVec 1).setWidth 32).toInt = 1 := by decide
    rw [e1]
    norm_num
  · rw [if_neg h]
    have e : IntOp.cmpi .eq (BitVec.ofNat 32 w.val) t = 0#1 := by
      have : ¬ BitVec.ofNat 32 w.val = t := fun e => h e.symm
      have hb : (BitVec.ofNat 32 w.val == t) = false := beq_eq_false_iff_ne.mpr this
      show BitVec.ofBool (BitVec.ofNat 32 w.val == t) = 0#1
      rw [hb]
      rfl
    rw [e]
    have e0 : ((0#1 : BitVec 1).setWidth 32).toInt = 0 := by decide
    rw [e0]
    norm_num

/-- The one-hot matrix at (label `w`, position `m`): the entry of position `m`'s token at label `w`. -/
theorem onehot_apply (x0 : Vec Ideal S1x1x1024 .i32) (w : Fin 4096) (m : Fin 1024) :
    (truncf .bf16 (sitofp (F := Ideal) .f32 (extui 32 (cmpi .eq (iota .tc S4096x1024 32 [0] iota_S4096x1024_d0_w32)
        (broadcastTo S4096x1024 (shapeCast S1x1024 x0 shapeCasts_S1x1x1024_S1x1024 : IVec S1x1024 32) broadcasts_S1x1024_S4096x1024)) natLt_1_32))
        bitsLt_bf16_f32 : FVec Ideal S4096x1024 .bf16) (ix2 w m)
      = hot (x0 (ix3 (0 : Fin 1) (0 : Fin 1) m)) w := by
  show (FloatOps.sitofp (F := Ideal) .f32 ((IntOp.cmpi .eq (iota .tc S4096x1024 32 [0] iota_S4096x1024_d0_w32 (ix2 w m))
      (broadcastTo S4096x1024 (shapeCast S1x1024 x0 shapeCasts_S1x1x1024_S1x1024 : IVec S1x1024 32) broadcasts_S1x1024_S4096x1024 (ix2 w m))).setWidth 32) : EReal) = _
  rw [iota_single_apply, broadcastTo_1b_ab_apply, shapeCast_1ab_ab_apply]
  exact onehot_word _ w

/-! ## The lane reductions and the keepdims layout -/

/-- The index the row reduction inserts its coordinate into is the row's own. -/
theorem lift_row (h : S1x1024.Reduces [1] S1) (k : Fin 1024) : h.lift (ix1 (0 : Fin 1)) k = ix2 (0 : Fin 1) k :=
  funext fun a => Fin.ext (by match a with | ⟨0, _⟩ => rfl | ⟨1, _⟩ => rfl)

/-- A `[1, 1]` array broadcast along the row reads its one entry everywhere. -/
theorem broadcastTo_11_1b_apply {α : Type} (v : S1x1.Idx → α) (h : S1x1.Broadcasts S1x1024) (m : Fin 1024) :
    broadcastTo S1x1024 v h (ix2 (0 : Fin 1) m) = v (ix2 (0 : Fin 1) (0 : Fin 1)) := by
  refine broadcastTo_apply v h (ix2 (0 : Fin 1) m) (ix2 (0 : Fin 1) (0 : Fin 1)) fun ax => ?_
  match ax with
  | ⟨0, _⟩ => rfl
  | ⟨1, _⟩ => rfl

/-- A reduced row kept as a column and broadcast back reads the reduced value at every position. -/
theorem keep_apply {α : Type} (v : S1.Idx → α) (m : Fin 1024) :
    broadcastTo S1x1024 (shapeCast S1x1 v shapeCasts_S1_S1x1) broadcasts_S1x1_S1x1024 (ix2 (0 : Fin 1) m) = v (ix1 (0 : Fin 1)) :=
  (broadcastTo_11_1b_apply _ _ m).trans (shapeCast_a_1a_apply v shapeCasts_S1_S1x1 (0 : Fin 1) (0 : Fin 1))

/-- The row's maximum from `-∞` is the specification's row maximum. -/
theorem rowmax_apply (s : FVec Ideal S1x1024 .f32) :
    multiReduction (F := Ideal) .maximumf [1] S1 s 0xFF800000#32 reduces_S1x1024_S1 (.inl rfl) rfl (ix1 (0 : Fin 1))
      = rowMax (fun k : Fin 1024 => s (ix2 (0 : Fin 1) k)) := by
  refine (Ideal.multiReduction_maximumf_single s 0xFF800000#32 reduces_S1x1024_S1 (.inl rfl) rfl (ix1 (0 : Fin 1))).trans ?_
  unfold rowMax
  have hb : (FloatOps.ofBits (F := Ideal) .f32 0xFF800000#32 : EReal) = ⊥ := by
    show Ideal.ofBits .f32 0xFF800000#32 = ⊥
    simp [Ideal.ofBits, Ideal.ieee]
  show (Finset.univ : Finset (Fin 1024)).fold max (FloatOps.ofBits (F := Ideal) .f32 0xFF800000#32 : EReal)
      (fun k => s (reduces_S1x1024_S1.lift (ix1 (0 : Fin 1)) k)) = _
  rw [hb]
  exact congrArg (fun f : Fin 1024 → EReal => (Finset.univ : Finset (Fin 1024)).fold max ⊥ f)
    (funext fun k => congrArg s (lift_row _ k))

/-- The row's sum from zero is the sum over the positions. -/
theorem rowsum_apply (e : FVec Ideal S1x1024 .f32) :
    multiReduction (F := Ideal) .add [1] S1 e 0x00000000#32 reduces_S1x1024_S1 (.inl rfl) rfl (ix1 (0 : Fin 1))
      = ∑ k : Fin 1024, e (ix2 (0 : Fin 1) k) := by
  refine (Ideal.multiReduction_add_single e 0x00000000#32 reduces_S1x1024_S1 (.inl rfl) rfl (ix1 (0 : Fin 1))).trans ?_
  show ∑ k : Fin 1024, e (reduces_S1x1024_S1.lift (ix1 (0 : Fin 1)) k) = _
  exact Finset.sum_congr rfl fun k _ => congrArg e (lift_row _ k)

/-! ## The softmax of a row -/

/-- The row with its maximum subtracted, exponentiated. -/
def expShift (s : FVec Ideal S1x1024 .f32) : FVec Ideal S1x1024 .f32 :=
  exp (subf s (broadcastTo S1x1024 (shapeCast S1x1
    (multiReduction (F := Ideal) .maximumf [1] S1 s 0xFF800000#32 reduces_S1x1024_S1 (.inl rfl) rfl) shapeCasts_S1_S1x1) broadcasts_S1x1_S1x1024))

theorem expShift_apply (s : FVec Ideal S1x1024 .f32) (m : Fin 1024) :
    expShift s (ix2 (0 : Fin 1) m) = Ideal.exp (s (ix2 (0 : Fin 1) m) - rowMax (fun k : Fin 1024 => s (ix2 (0 : Fin 1) k))) := by
  show Ideal.exp (s (ix2 (0 : Fin 1) m) - broadcastTo S1x1024 (shapeCast S1x1
    (multiReduction (F := Ideal) .maximumf [1] S1 s 0xFF800000#32 reduces_S1x1024_S1 (.inl rfl) rfl) shapeCasts_S1_S1x1) broadcasts_S1x1_S1x1024 (ix2 (0 : Fin 1) m)) = _
  rw [keep_apply, rowmax_apply]

/-- A row divided by its sum, narrowed. -/
def normalised (e : FVec Ideal S1x1024 .f32) : FVec Ideal S1x1024 .bf16 :=
  truncf .bf16 (divf e (broadcastTo S1x1024 (shapeCast S1x1
    (multiReduction (F := Ideal) .add [1] S1 e 0x00000000#32 reduces_S1x1024_S1 (.inl rfl) rfl) shapeCasts_S1_S1x1) broadcasts_S1x1_S1x1024)) bitsLt_bf16_f32

theorem normalised_apply (e : FVec Ideal S1x1024 .f32) (m : Fin 1024) :
    normalised e (ix2 (0 : Fin 1) m) = Ideal.div (e (ix2 (0 : Fin 1) m)) (∑ k : Fin 1024, e (ix2 (0 : Fin 1) k)) := by
  show Ideal.div (e (ix2 (0 : Fin 1) m)) (broadcastTo S1x1024 (shapeCast S1x1
    (multiReduction (F := Ideal) .add [1] S1 e 0x00000000#32 reduces_S1x1024_S1 (.inl rfl) rfl) shapeCasts_S1_S1x1) broadcasts_S1x1_S1x1024 (ix2 (0 : Fin 1) m)) = _
  rw [keep_apply, rowsum_apply]

/-- The normalised exponentials of a row are its softmax. -/
theorem softmax_apply (s : FVec Ideal S1x1024 .f32) (m : Fin 1024) :
    normalised (expShift s) (ix2 (0 : Fin 1) m) = softmaxRow (fun k : Fin 1024 => s (ix2 (0 : Fin 1) k)) m := by
  rw [normalised_apply]
  simp only [expShift_apply]
  rfl

/-! ## The stored value -/

/-- The stored value at label `w` is `lastRow` of the loaded tokens and the loaded row of `R`. -/
theorem pay_apply (x0 : Vec Ideal S1x1x1024 .i32) (x1 : Vec Ideal S1x1x4096 .f32) (w : Fin 4096) :
    k0_pay1 (F := Ideal) x0 x1 (ix3 (0 : Fin 1) (0 : Fin 1) w)
      = lastRow (fun m : Fin 1024 => x0 (ix3 (0 : Fin 1) (0 : Fin 1) m)) (fun v : Fin 4096 => x1 (ix3 (0 : Fin 1) (0 : Fin 1) v)) w := by
  unfold k0_pay1
  -- the stored block is the second product with a unit axis in front
  refine (shapeCast_ab_1ab_apply _ _ (0 : Fin 1) (0 : Fin 1) w).trans ?_
  refine (mix_matmul_apply _ _ w).trans ?_
  unfold lastRow mix
  refine Finset.sum_congr rfl fun m _ => ?_
  refine congrArg₂ (fun a b : EReal => a * b) ?_ (onehot_apply x0 w m)
  -- the left factor is the softmax of the first product's row
  refine (softmax_apply _ m).trans ?_
  refine congrArg (fun s => softmaxRow s m) (funext fun k => ?_)
  refine (scores_matmul_apply _ _ k).trans ?_
  unfold scores
  refine Finset.sum_congr rfl fun v _ => ?_
  exact congrArg₂ (fun a b : EReal => a * b) (shapeCast_1ab_ab_apply x1 _ (0 : Fin 1) v) (onehot_apply x0 v k)

end Cert.LastRowAttn.Payload

end
-- ==== Proof.KernelValue.lean ====
/-
  What the kernel's result array holds after the run.  At grid point t the body stores, at label w, the
  batch row's result of the token block it loaded (row t of the tokens) and of the block of `R` the
  prefetched word of row t names (row tok(t, 1023) of `R`); the sixteen points' blocks are the sixteen
  rows of the [16, 1, 4096] array; the reshape after the region drops the unit axis.
-/
import proofs.«406636_j52055003628298_3_alg».proof.Defs
import proofs.«406636_j52055003628298_3_alg».proof.Proof.Gen.KernelIdeal.Frame
import proofs.«406636_j52055003628298_3_alg».proof.Proof.Spec
import proofs.«406636_j52055003628298_3_alg».proof.Proof.PayloadValue
import proofs.«406636_j52055003628298_3_alg».proof.Proof.OkOfPreIdeal
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.LastRowAttn.KernelValue

open Idealize.ShloMosaic Idealize.ShloMosaic.TcCoe Idealize.SL.Sem Idealize.ShloMosaic.ValueIdx
open Idealize.ShloMosaic.Pipeline (Dat)
open Cert.LastRowAttn Cert.KernelIdeal Cert.KernelIdeal.Gen

theorem hz3 : (![0, 0, 0] : Fin 3 → Nat) = fun _ => 0 := funext fun a => by fin_cases a <;> rfl

/-- The one control case leaves, in the output's staging buffer, the body's stored value of the two loaded blocks. -/
theorem out_A {F : FTy → Type} [FloatOps F] (c : Dev nD) (i : grid0.Coords) (arg2 : Memref sig .tc .vmem S1x1x1024 .i32) (harg2 : arg2.IsWhole)
    (arg3 : Memref sig .tc .vmem S1x1x4096 .f32) (harg3 : arg3.IsWhole) (arg4 : Memref sig .tc .vmem S1x1x4096 .f32) (harg4 : arg4.IsWhole)
    (x0 : Vec F S1x1x1024 .i32) (x1 : Vec F S1x1x4096 .f32) (xt0 : TbBuf0 (F := F) c tbM0_0) :
    out0_A_2 c i arg2 harg2 arg3 harg3 arg4 harg4 x0 x1 xt0 = k0_pay1 x0 x1 := by
  unfold out0_A_2
  rw [View.read_writes_eq_canon _ _ _ (cover0_A_2 c i arg2 harg2 arg3 harg3 arg4 harg4 x0 x1 xt0)]
  unfold kernelRun0_A
  dsimp only
  sl_unfold_words
  rw [View.canon_unit_zero hz3]
  simp only [View.readAt_eq_ld, harg2.read_unread, harg3.read_unread, View.ld_unit_zero (S := S1x1x1024) hz3, View.ld_unit_zero (S := S1x1x4096) hz3]

variable (m : (ℓ : Loc nD τ sig) → Buf (Elt Ideal) ℓ) (ρ : Dev nD → PrngReg)

/-- The token array as the region finds it: the argument with a unit axis inserted. -/
theorem V_tok (c : Dev nD) : (V m c main_v2 : S16x1x1024.Idx → BitVec 32)
    = broadcastInDim S16x1x1024 ![0, 2] Facts₀.bcast_S16x1024_S16x1x1024_0_2 (m ((c : Thread nD τ).loc main_arg0)) := by
  show StableHlo.after hostOps0 (fun b => m (c, b)) (Proc.devRef .tc main_v2) = _
  after_results

/-- `R` as the region finds it: the argument with a unit axis inserted. -/
theorem V_R (c : Dev nD) : (V m c main_v3 : S4096x1x4096.Idx → EReal)
    = broadcastInDim S4096x1x4096 ![0, 2] Facts₀.bcast_S4096x4096_S4096x1x4096_0_2 (m ((c : Thread nD τ).loc main_arg1)) := by
  show StableHlo.after hostOps0 (fun b => m (c, b)) (Proc.devRef .tc main_v3) = _
  after_results

theorem V_tok_apply (c : Dev nD) (b : Fin 16) (k : Fin 1024) :
    (V m c main_v2 : S16x1x1024.Idx → BitVec 32) (ix3 b (0 : Fin 1) k) = m ((c : Thread nD τ).loc main_arg0) (ix2 b k) := by
  rw [V_tok]
  exact broadcastInDim_apply _ Facts₀.bcast_S16x1024_S16x1x1024_0_2 _ (ix3 b (0 : Fin 1) k) (ix2 b k) (fun a => match a with
    | ⟨0, _⟩ => by show b.val = if (16 : Nat) = 1 then 0 else b.val; rw [if_neg (by decide)]
    | ⟨1, _⟩ => by show k.val = if (1024 : Nat) = 1 then 0 else k.val; rw [if_neg (by decide)])

theorem V_R_apply (c : Dev nD) (r : Fin 4096) (w : Fin 4096) :
    (V m c main_v3 : S4096x1x4096.Idx → EReal) (ix3 r (0 : Fin 1) w) = m ((c : Thread nD τ).loc main_arg1) (ix2 r w) := by
  rw [V_R]
  exact broadcastInDim_apply _ Facts₀.bcast_S4096x4096_S4096x1x4096_0_2 _ (ix3 r (0 : Fin 1) w) (ix2 r w) (fun a => match a with
    | ⟨0, _⟩ => by show r.val = if (4096 : Nat) = 1 then 0 else r.val; rw [if_neg (by decide)]
    | ⟨1, _⟩ => by show w.val = if (4096 : Nat) = 1 then 0 else w.val; rw [if_neg (by decide)])

/-- The index maps that read no table, decided over the grid. -/
theorem idx_facts : ∀ t : Fin grid0.N, cc0_transform_0 (grid0.coords t) = ![t.val, 0, 0] ∧ cc0_transform_2 (grid0.coords t) = ![t.val, 0, 0]
    ∧ ((grid0.coords t) 0).val = t.val :=
  (by decide +kernel : ∀ t : Fin grid0.N, _)

/-- Grid point `t` as a batch row. -/
abbrev row (t : Fin grid0.N) : Fin 16 := ⟨t.val, N_0 ▸ t.isLt⟩

/-- The one index of a unit rectangle at offset `n` of the table is the table's index `n`. -/
theorem word_idx (n : Fin 16) (off : Fin 1 → Nat) (hoff : off 0 = n.val) (inb : ∀ a, off a + S1.size a ≤ S16.size a) (h1 : 0 < S1.numel) :
    (Rect.unit (s := S16) off S1.size inb).emb (Shape.Idx.first h1) = ix1 n := by
  funext d
  match d with
  | ⟨0, _⟩ =>
    apply Fin.ext
    show off 0 + 1 * 0 = n.val
    omega

section Blocks

variable (a : (pcfg0 (F := Ideal)).Adm)

theorem win0_index (t : Fin (cfg0 a).N) : ((cfg0 a).win 0).index t = ![t.val, 0, 0] := (idx_facts t).1
theorem win2_index (t : Fin (cfg0 a).N) : ((cfg0 a).win 2).index t = ![t.val, 0, 0] := (idx_facts t).2.1

/-- The table-indexed window's block index at point `t` is the table's word of row `t`, read unsigned. -/
theorem win1_index (t : Fin (cfg0 a).N) : ((cfg0 a).win 1).index t = ![(a.1 0 (ix1 (row t))).toNat, 0, 0] := by
  have hoff : (![(Scalar.indexCast (BitVec.ofNat 32 ((grid0.coords t) 0).val)).toNat] : Fin 1 → Nat) 0 = (row t).val := by
    show (BitVec.ofNat 32 ((grid0.coords t) 0).val).toNat = t.val
    have h16 : t.val < 16 := N_0 ▸ t.isLt
    rw [BitVec.toNat_ofNat, (idx_facts t).2.2, Nat.mod_eq_of_lt (by omega)]
  exact congrArg (fun x : S16.Idx => (![(a.1 0 x).toNat, 0, 0] : Fin 3 → Nat)) (word_idx (row t) _ hoff _ _)

/-- Where the token window's block at point `t` sits in the token array. -/
theorem emb0 (t : Fin (cfg0 a).N) (k : Fin 1024) :
    (((cfg0 a).win 0).blk t).view.emb (ix3 (0 : Fin 1) (0 : Fin 1) k) = ix3 (row t) (0 : Fin 1) k := by
  funext d
  apply Fin.ext
  match d with
  | ⟨0, _⟩ => show ((cfg0 a).win 0).index t (0 : Fin 3) * 1 + 1 * 0 = t.val; rw [win0_index]; simp
  | ⟨1, _⟩ => show ((cfg0 a).win 0).index t (1 : Fin 3) * 1 + 1 * 0 = 0; rw [win0_index]; simp
  | ⟨2, _⟩ => show ((cfg0 a).win 0).index t (2 : Fin 3) * 1024 + 1 * k.val = k.val; rw [win0_index]; simp

/-- Where the output window's block at point `t` sits in the output array. -/
theorem emb2 (t : Fin (cfg0 a).N) (w : Fin 4096) :
    (((cfg0 a).win 2).blk t).view.emb (ix3 (0 : Fin 1) (0 : Fin 1) w) = ix3 (row t) (0 : Fin 1) w := by
  funext d
  apply Fin.ext
  match d with
  | ⟨0, _⟩ => show ((cfg0 a).win 2).index t (0 : Fin 3) * 1 + 1 * 0 = t.val; rw [win2_index]; simp
  | ⟨1, _⟩ => show ((cfg0 a).win 2).index t (1 : Fin 3) * 1 + 1 * 0 = 0; rw [win2_index]; simp
  | ⟨2, _⟩ => show ((cfg0 a).win 2).index t (2 : Fin 3) * 4096 + 1 * w.val = w.val; rw [win2_index]; simp

/-- Where the block of `R` at point `t` sits: the row the table's word names. -/
theorem emb1 (t : Fin (cfg0 a).N) (h : (a.1 0 (ix1 (row t))).toNat < 4096) (w : Fin 4096) :
    (((cfg0 a).win 1).blk t).view.emb (ix3 (0 : Fin 1) (0 : Fin 1) w) = ix3 (⟨(a.1 0 (ix1 (row t))).toNat, h⟩ : Fin 4096) (0 : Fin 1) w := by
  funext d
  apply Fin.ext
  match d with
  | ⟨0, _⟩ => show ((cfg0 a).win 1).index t (0 : Fin 3) * 1 + 1 * 0 = (a.1 0 (ix1 (row t))).toNat; rw [win1_index]; simp
  | ⟨1, _⟩ => show ((cfg0 a).win 1).index t (1 : Fin 3) * 1 + 1 * 0 = 0; rw [win1_index]; simp
  | ⟨2, _⟩ => show ((cfg0 a).win 1).index t (2 : Fin 3) * 4096 + 1 * w.val = w.val; rw [win1_index]; simp

end Blocks

theorem emb1' (a : (pcfg0 (F := Ideal)).Adm) (pf : pre0.Contents (Elt Ideal)) (hpf : a.1 = pf) (t : Fin (cfg0 a).N)
    (x : BitVec 32) (hx : pf 0 (ix1 (row t)) = x) (h : x.toNat < 4096) (w : Fin 4096) :
    (((cfg0 a).win 1).blk t).view.emb (ix3 (0 : Fin 1) (0 : Fin 1) w) = ix3 (⟨x.toNat, h⟩ : Fin 4096) (0 : Fin 1) w := by
  subst hpf; subst hx; exact emb1 a t h w

/-- The side condition says the table's word of every row, read unsigned, is a row of `R`. -/
theorem word_lt (a : (pcfg0 (F := Ideal)).Adm) (t : Fin (cfg0 a).N) : (a.1 0 (ix1 (row t))).toNat < 4096 := by
  obtain ⟨h, -⟩ := a.2 (grid0.coords t)
  have h0 := h (0 : Fin 3)
  have e : cc0_transform_1 Facts₀.k0_off1_inb Facts₀.numel1_S1 a.1 (grid0.coords t) = ![(a.1 0 (ix1 (row t))).toNat, 0, 0] := win1_index a t
  rw [e] at h0
  have h1 : ((a.1 0 (ix1 (row t))).toNat + 1) * 1 ≤ 4096 := h0
  omega

/-- The token block at point `t` is row `t` of the token array. -/
theorem iblk0_apply (hO : Ok m) (c : Dev nD) (t : Fin (cfgM m hO).N) (k : Fin 1024) :
    (iblk m hO c 0 t : S1x1x1024.Idx → BitVec 32) (ix3 (0 : Fin 1) (0 : Fin 1) k) = m ((c : Thread nD τ).loc main_arg0) (ix2 (row t) k) := by
  show (V m c main_v2 : S16x1x1024.Idx → BitVec 32) ((((cfg0 (adm m hO)).win 0).blk t).view.emb (ix3 (0 : Fin 1) (0 : Fin 1) k)) = _
  rw [emb0 (adm m hO) t k]
  exact V_tok_apply m c (row t) k

/-- The block of `R` at point `t` is the row of `R` the table's word of row `t` names. -/
theorem iblk1_apply (hO : Ok m) (c : Dev nD) (t : Fin (cfgM m hO).N) (x : BitVec 32) (hx : tbl m 0 (ix1 (row t)) = x) (h : x.toNat < 4096) (w : Fin 4096) :
    (iblk m hO c 1 t : S1x1x4096.Idx → EReal) (ix3 (0 : Fin 1) (0 : Fin 1) w) = m ((c : Thread nD τ).loc main_arg1) (ix2 (⟨x.toNat, h⟩ : Fin 4096) w) := by
  show (V m c main_v3 : S4096x1x4096.Idx → EReal) ((((cfg0 (adm m hO)).win 1).blk t).view.emb (ix3 (0 : Fin 1) (0 : Fin 1) w)) = _
  rw [emb1' (adm m hO) (tbl m) rfl t x hx h w]
  exact V_R_apply m c _ w

/-- The [16, 1, 4096] array the region leaves: row `b`, label `w` is the specification at (b, w). -/
def G3 (tok : S16x1024.Idx → BitVec 32) (R : S4096x4096.Idx → EReal) : S16x1x4096.Idx → EReal :=
  fun i => G tok R (ix2 (i 0) (i 2))

theorem G3_row (tok : S16x1024.Idx → BitVec 32) (R : S4096x4096.Idx → EReal) (b : Fin 16) (w : Fin 4096) :
    G3 tok R (ix3 b (0 : Fin 1) w) = lastRow (fun k : Fin 1024 => tok (ix2 b k)) (rowSel R (tok (ix2 b (1023 : Fin 1024)))) w := rfl

/-- What the output's staging buffer holds after point `t`: the body's stored value of the point's two input blocks. -/
theorem outsAt_eq (hO : Ok m) (c : Dev nD) (t : Fin (cfgM m hO).N) :
    outsAt0 m hO c t = k0_pay1 (F := Ideal) (iblk m hO c 0 t) (iblk m hO c 1 t) :=
  out_A (F := Ideal) c (grid0.coords t) (ms0_0 m hO t) (hs0_0 m hO t) (ms0_1 m hO t) (hs0_1 m hO t) (ms0_2 m hO t) (hs0_2 m hO t)
    (iblk m hO c 0 t) (iblk m hO c 1 t) (tbl m 0)

/-- An index of a [1, 1, 4096] block is its label. -/
theorem idx_00 (y : S1x1x4096.Idx) : y = ix3 (0 : Fin 1) (0 : Fin 1) (y 2) := by
  funext d
  apply Fin.ext
  match d with
  | ⟨0, _⟩ => show (y 0).val = 0; have : (y 0).val < 1 := (y 0).isLt; omega
  | ⟨1, _⟩ => show (y 1).val = 0; have : (y 1).val < 1 := (y 1).isLt; omega
  | ⟨2, _⟩ => rfl

/-- What point `t` writes back is block `t` of that array. -/
theorem flushed_eq (hO : Ok m) (c : Dev nD) (t : Fin (cfgM m hO).N) :
    (dats m hO 0 c).flushed 2 t = (((cfgM m hO).win 2).blk t).view.read (Elt Ideal) (G3 (m ((c : Thread nD τ).loc main_arg0)) (m ((c : Thread nD τ).loc main_arg1))) := by
  show ((cfgM m hO).win 2).cut (grid0.coords t) ((dats m hO 0 c).after 2 t) = _
  rw [after0_2, outsAt_eq]
  obtain rfl : c = 0 := Subsingleton.elim _ _
  have hx := OkIdeal.tbl_apply m (ix1 (row t))
  have hlt : (tbl m 0 (ix1 (row t))).toNat < 4096 := word_lt (adm m hO) t
  rw [hx] at hlt
  have e0 : (fun k : Fin 1024 => (iblk m hO 0 0 t : S1x1x1024.Idx → BitVec 32) (ix3 (0 : Fin 1) (0 : Fin 1) k)) = fun k => m (((0 : Dev nD) : Thread nD τ).loc main_arg0) (ix2 (row t) k) :=
    funext fun k => iblk0_apply m hO 0 t k
  have e1 : (fun v : Fin 4096 => (iblk m hO 0 1 t : S1x1x4096.Idx → EReal) (ix3 (0 : Fin 1) (0 : Fin 1) v)) = rowSel (m (((0 : Dev nD) : Thread nD τ).loc main_arg1)) (m (((0 : Dev nD) : Thread nD τ).loc main_arg0) (ix2 (row t) (1023 : Fin 1024))) :=
    funext fun v => (iblk1_apply m hO 0 t _ hx hlt v).trans (rowSel_of_lt _ _ hlt v).symm
  refine funext fun (y : S1x1x4096.Idx) => ?_
  obtain ⟨w, rfl⟩ : ∃ w : Fin 4096, y = ix3 (0 : Fin 1) (0 : Fin 1) w := ⟨y 2, idx_00 y⟩
  show k0_pay1 (F := Ideal) (iblk m hO 0 0 t) (iblk m hO 0 1 t) (ix3 (0 : Fin 1) (0 : Fin 1) w)
    = G3 _ _ ((((cfg0 (adm m hO)).win 2).blk t).view.emb (ix3 (0 : Fin 1) (0 : Fin 1) w))
  rw [emb2 (adm m hO) t w]
  exact (Payload.pay_apply (iblk m hO 0 0 t) (iblk m hO 0 1 t) w).trans
    ((congrArg₂ (fun a b => lastRow a b w) e0 e1).trans (G3_row _ _ (row t) w).symm)

/-- Every index of the output array is in the block of the point its row names. -/
theorem cover2 (a : (pcfg0 (F := Ideal)).Adm) (i : S16x1x4096.Idx) :
    ∃ t : Fin (cfg0 a).N, ((cfg0 a).win 2).flush t = true ∧ i ∈ (((cfg0 a).win 2).blk t).view.set := by
  have h0 : (i 0).val < 16 := (i 0).isLt
  have h1 : (i 1).val < 1 := (i 1).isLt
  have hN : (i 0).val < grid0.N := by have := N_0; omega
  obtain ⟨t, ht⟩ : ∃ t : Fin (cfg0 a).N, t.val = (i 0).val := ⟨⟨(i 0).val, hN⟩, rfl⟩
  refine ⟨t, flush0_2 a t, ?_⟩
  have hi : i = (((cfg0 a).win 2).blk t).view.emb (ix3 (0 : Fin 1) (0 : Fin 1) (i 2)) := by
    rw [emb2 a t (i 2)]
    funext d
    apply Fin.ext
    match d with
    | ⟨0, _⟩ => show (i 0).val = t.val; omega
    | ⟨1, _⟩ => show (i 1).val = 0; omega
    | ⟨2, _⟩ => rfl
  rw [hi]
  exact View.emb_mem_set _ _

/-- The output array after the region. -/
theorem final (hO : Ok m) (c : Dev nD) :
    (dats m hO 0 c).arrAt 2 (cfgM m hO).N = G3 (m ((c : Thread nD τ).loc main_arg0)) (m ((c : Thread nD τ).loc main_arg1)) :=
  (dats m hO 0 c).arrAt_eq_of_cover 2 (G3 (m ((c : Thread nD τ).loc main_arg0)) (m ((c : Thread nD τ).loc main_arg1)))
    (fun t _ => flushed_eq m hO c t) (cover2 (adm m hO))

/-- Dropping the unit axis of that array gives the specification. -/
theorem reshape_G3 (tok : S16x1024.Idx → BitVec 32) (R : S4096x4096.Idx → EReal) :
    shapeCast S16x4096 (G3 tok R) Facts₀.shapeCasts_S16x1x4096_S16x4096 = G tok R := by
  funext i
  have h0 : (i 0).val < 16 := (i 0).isLt
  have h1 : (i 1).val < 4096 := (i 1).isLt
  refine (shapeCast_apply (G3 tok R) Facts₀.shapeCasts_S16x1x4096_S16x4096 i (ix3 (i 0) (0 : Fin 1) (i 1)) ?_).trans ?_
  · rewrite [Shape.rowMajor_val_three, Shape.rowMajor_val_two]
    show ((i 0).val * 1 + 0) * 4096 + (i 1).val = (i 0).val * 4096 + (i 1).val
    omega
  · show G tok R (ix2 (i 0) (i 1)) = G tok R i
    exact congrArg (G tok R) (eq_ix2 i).symm

/-- The result buffer after the reshape that follows the region. -/
theorem tail_eq (hO : Ok m) (c : Dev nD) :
    Pipeline.afterTail pcfgs (fun _ => adm m hO) (dats m hO) 0 (V0 m) [hostOps1] c main_v5
      = G (m ((c : Thread nD τ).loc main_arg0)) (m ((c : Thread nD τ).loc main_arg1)) := by
  unfold Pipeline.afterTail
  show StableHlo.after hostOps1 _ (Proc.devRef .tc main_v5) = _
  after_results
  rw [Pipeline.withArrays_arr spec0 (launch0 (F := Ideal)).win.arr_inj c _ _ 2]
  rw [final m hO c]
  exact reshape_G3 _ _

/-- The run, read: the result at the specification of the arguments, the arguments unchanged. -/
theorem run (hO : Ok m) : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (by decide : main_v5 ∈ Pipeline.restRefs sig spec0)).trans (tail_eq m hO c),
       ((h c).2 main_arg0 (by decide : main_arg0 ∈ Pipeline.restRefs sig spec0)).trans (W_main_arg0 m hO (dats m hO) c),
       ((h c).2 main_arg1 (by decide : main_arg1 ∈ Pipeline.restRefs sig spec0)).trans (W_main_arg1 m hO (dats m hO) c)⟩)
    (run_main m ρ hO)

end Cert.LastRowAttn.KernelValue

end
-- ==== Proof.RefValue.lean ====
/-
  The reference's result, index by index, is the specification `G` of its two arguments.
-/
import proofs.«406636_j52055003628298_3_alg».proof.Proof.Gen.ReferenceIdeal.Read
import proofs.«406636_j52055003628298_3_alg».proof.Proof.Spec
import Idealize.ShloMosaic.Lib.ValueIdx
import Idealize.ShloMosaic.Lib.StableHlo.Predicate
import Idealize.ShloMosaic.PureOps.Ideal.Laws
import Idealize.ShloMosaic.PureOps.Reduce

noncomputable section

namespace Cert.LastRowAttn.Ref

open Idealize.ShloMosaic Idealize.ShloMosaic.ValueIdx Cert.LastRowAttn
open Cert.ReferenceIdeal Cert.ReferenceIdeal.Gen Cert.ReferenceIdeal.Read

section Stages

variable (x0 : (⟨S16x1024, .i32⟩ : BufTy).Contents (Elt Ideal)) (x1 : (⟨S4096x4096, .f32⟩ : BufTy).Contents (Elt Ideal))

/-! ## The one-hot array -/

/-- A one-bit equality test converted to a float is the indicator of the equality. -/
theorem uitofp_cmpi_eq (t u : BitVec 32) :
    (FloatOps.uitofp (F := Ideal) .f32 (IntOp.cmpi .eq t u) : EReal) = if t = u then 1 else 0 := by
  by_cases h : t = u
  · rw [if_pos h, StableHlo.Predicate.cmpi_eq_iff.mpr h]
    show (((1#1 : BitVec 1).toNat : ℝ) : EReal) = 1
    simp
  · rw [if_neg h, eq_zero_of_ne_one (fun e => h (StableHlo.Predicate.cmpi_eq_iff.mp e))]
    show (((0#1 : BitVec 1).toNat : ℝ) : EReal) = 0
    simp

/-- The one-hot array at (b, m, w) is the one-hot entry of the token (b, m) at label w. -/
theorem v0_at (b : Fin 16) (m : Fin 1024) (w : Fin 4096) :
    val_main_v0 (F := Ideal) x0 (ix3 b m w) = hot (x0 (ix2 b m)) w := by
  rw [val_main_v0_apply, val_main_call0_v4_apply, val_main_call0_v2_apply, val_main_call0_v0_apply,
    val_main_call0_v3_apply, val_main_call0_v1_apply]
  have e0 : idx_main_call0_v0 (idx_main_call0_v2 (ix3 b m w)) = ix2 b m :=
    funext fun a => Fin.ext (by match a with | ⟨0, _⟩ => rfl | ⟨1, _⟩ => rfl)
  have e1 : ((idx_main_call0_v3 (ix3 b m w)) 2).val = w.val := rfl
  rw [e0, e1, uitofp_cmpi_eq]
  rfl

/-! ## The selected row and the scores -/

/-- The first contraction at (b, n, w): the row of `R` that the token (b, n) selects, at w. -/
theorem v1_at (b : Fin 16) (n : Fin 1024) (w : Fin 4096) :
    val_main_v1 (F := Ideal) x0 x1 (ix3 b n w) = rowSel x1 (x0 (ix2 b n)) w := by
  rw [val_main_v1_apply]
  unfold rowSel
  refine Finset.sum_congr rfl fun k _ => ?_
  have el : lidx_main_v1 (ix3 b n w) k = ix3 b n k :=
    funext fun a => Fin.ext (by match a with | ⟨0, _⟩ => rfl | ⟨1, _⟩ => rfl | ⟨2, _⟩ => rfl)
  have er : ridx_main_v1 (ix3 b n w) k = ix2 k w :=
    funext fun a => Fin.ext (by match a with | ⟨0, _⟩ => rfl | ⟨1, _⟩ => rfl)
  rw [el, er, v0_at]

/-- The second contraction at (b, n, m): the score of key position m against the row selected at n. -/
theorem v2_at (b : Fin 16) (n m : Fin 1024) :
    val_main_v2 (F := Ideal) x0 x1 (ix3 b n m)
      = scores (fun m => x0 (ix2 b m)) (rowSel x1 (x0 (ix2 b n))) m := by
  rw [val_main_v2_apply]
  unfold scores
  refine Finset.sum_congr rfl fun k _ => ?_
  have el : lidx_main_v2 (ix3 b n m) k = ix3 b n k :=
    funext fun a => Fin.ext (by match a with | ⟨0, _⟩ => rfl | ⟨1, _⟩ => rfl | ⟨2, _⟩ => rfl)
  have er : ridx_main_v2 (ix3 b n m) k = ix3 b m k :=
    funext fun a => Fin.ext (by match a with | ⟨0, _⟩ => rfl | ⟨1, _⟩ => rfl | ⟨2, _⟩ => rfl)
  rw [el, er, v1_at, v0_at]

/-! ## The causal mask on the last row -/

/-- On the last row every column lies on the lower triangle. -/
theorem tril_last (m : Fin 1024) :
    IntOp.cmpi .sge (IntOp.addi (BitVec.ofNat 32 ((1023 : Fin 1024) : ℕ)) 0#32) (BitVec.ofNat 32 m.val) = 1#1 := by
  have hm : m.val < 1024 := m.isLt
  have ha : (IntOp.addi (BitVec.ofNat 32 ((1023 : Fin 1024) : ℕ)) 0#32).toNat = 1023 := by decide
  have hb : (BitVec.ofNat 32 m.val).toNat = m.val := by
    rw [BitVec.toNat_ofNat]; exact Nat.mod_eq_of_lt (by omega)
  rw [StableHlo.Predicate.sge_iff_toNat (by rw [ha]; decide) (by rw [hb]; omega), ha, hb]
  omega

/-- The additive mask at (b, 1023, m) is zero. -/
theorem v8_at (b : Fin 16) (m : Fin 1024) :
    val_main_v8 (F := Ideal) (ix3 b (1023 : Fin 1024) m) = 0 := by
  rw [val_main_v8_apply, val_main_v7_apply, val_main_v6_apply, val_main_v5_apply, val_main_v4_apply,
    val_main_call1_v4_apply, val_main_call1_v2_apply, val_main_call1_v0_apply, val_main_call1_v1_apply,
    val_main_call1_c_apply, val_main_call1_v3_apply, val_main_v3_apply, val_main_c_apply]
  have e0 : ((idx_main_v7 (idx_main_v8 (ix3 b (1023 : Fin 1024) m))) 0).val = ((1023 : Fin 1024) : ℕ) := rfl
  have e1 : ((idx_main_v7 (idx_main_v8 (ix3 b (1023 : Fin 1024) m))) 1).val = m.val := rfl
  rw [e0, e1, tril_last, select_one, select_one, val_main_call2_v0_apply, val_main_cst_apply]
  exact Ideal.ofBits_zero_f32

/-- So the masked scores on the last row are the scores. -/
theorem v9_at (b : Fin 16) (m : Fin 1024) :
    val_main_v9 (F := Ideal) x0 x1 (ix3 b (1023 : Fin 1024) m)
      = scores (fun m => x0 (ix2 b m)) (rowSel x1 (x0 (ix2 b (1023 : Fin 1024)))) m := by
  rw [val_main_v9_apply, v8_at, v2_at]
  show _ + (0 : EReal) = _
  rw [add_zero]

/-! ## The softmax of the last row -/

/-- The tokens of batch row b. -/
abbrev tokRow (b : Fin 16) : Fin 1024 → BitVec 32 := fun m => x0 (ix2 b m)

/-- The scores of the last query position of batch row b against every key position. -/
abbrev lastScores (b : Fin 16) : Fin 1024 → EReal :=
  scores (tokRow x0 b) (rowSel x1 (x0 (ix2 b (1023 : Fin 1024))))

theorem v9_last (b : Fin 16) (m : Fin 1024) :
    val_main_v9 (F := Ideal) x0 x1 (ix3 b (1023 : Fin 1024) m) = lastScores x0 x1 b m := v9_at x0 x1 b m

/-- The word of minus infinity is the bottom element. -/
theorem neg_inf : Ideal.ofBits .f32 0xFF800000#32 = (⊥ : EReal) := by simp [Ideal.ofBits, Ideal.ieee]

/-- The row maximum: the reduction over the key axis is the fold of `max` from the bottom element. -/
theorem v10_at (b : Fin 16) :
    val_main_v10 (F := Ideal) x0 x1 (ix2 b (1023 : Fin 1024)) = rowMax (lastScores x0 x1 b) := by
  unfold val_main_v10
  have h : S16x1024x1024.Reduces [2] S16x1024 := by decide
  have hl : ∀ k : Fin 1024, h.lift (ix2 b (1023 : Fin 1024)) k = ix3 b (1023 : Fin 1024) k := fun k =>
    funext fun c => Fin.ext (by
      show h.liftVal (ix2 b (1023 : Fin 1024)) k.val c = _
      match c with
      | ⟨0, _⟩ => rfl
      | ⟨1, _⟩ => rfl
      | ⟨2, _⟩ => rfl)
  have hf : (fun k : Fin 1024 => val_main_v9 (F := Ideal) x0 x1 (h.lift (ix2 b (1023 : Fin 1024)) k))
      = lastScores x0 x1 b :=
    funext fun k => (congrArg (val_main_v9 (F := Ideal) x0 x1) (hl k)).trans (v9_last x0 x1 b k)
  have hi : val_main_cst_1 (F := Ideal) (Shape.Idx.first h_S_) = (⊥ : EReal) := by
    rw [val_main_cst_1_apply, Ideal.ofBits_def, neg_inf]
  refine (Host.reduce_eq_fold_single FloatOps.maximumf _ _ reducesTo_S16x1024x1024_S16x1024_d2 h h_S_ _).trans ?_
  refine (congrArg (fun f => (Finset.univ : Finset (Fin 1024)).fold (FloatOps.maximumf (F := Ideal) (φ := .f32))
    (val_main_cst_1 (F := Ideal) (Shape.Idx.first h_S_)) f) hf).trans ?_
  rw [hi]
  rfl

/-- The maximum against minus infinity changes nothing. -/
theorem v12_at (b : Fin 16) :
    val_main_v12 (F := Ideal) x0 x1 (ix2 b (1023 : Fin 1024)) = rowMax (lastScores x0 x1 b) := by
  rw [val_main_v12_apply, val_main_v11_apply, val_main_cst_2_apply, v10_at, Ideal.ofBits_def, neg_inf]
  show max (⊥ : EReal) _ = _
  rw [max_bot_left]

/-- The row maximum broadcast back along the key axis. -/
theorem v14_at (b : Fin 16) (m : Fin 1024) :
    val_main_v14 (F := Ideal) x0 x1 (ix3 b (1023 : Fin 1024) m) = rowMax (lastScores x0 x1 b) := by
  rw [val_main_v14_apply, val_main_v13_apply]
  have e : idx_main_v13 (idx_main_v14 (ix3 b (1023 : Fin 1024) m)) = ix2 b (1023 : Fin 1024) :=
    funext fun a => Fin.ext (by match a with | ⟨0, _⟩ => rfl | ⟨1, _⟩ => rfl)
  rw [e, v12_at]

/-- The exponential of the shifted scores. -/
theorem v16_at (b : Fin 16) (m : Fin 1024) :
    val_main_v16 (F := Ideal) x0 x1 (ix3 b (1023 : Fin 1024) m)
      = Ideal.exp (lastScores x0 x1 b m - rowMax (lastScores x0 x1 b)) := by
  rw [val_main_v16_apply, val_main_v15_apply, v9_last, v14_at]
  rfl

/-- The normaliser: the sum of the exponentials over the key axis. -/
theorem v17_at (b : Fin 16) :
    val_main_v17 (F := Ideal) x0 x1 (ix2 b (1023 : Fin 1024))
      = ∑ k : Fin 1024, Ideal.exp (lastScores x0 x1 b k - rowMax (lastScores x0 x1 b)) := by
  rw [val_main_v17_apply, val_main_cst_3_apply, Ideal.ofBits_def, Ideal.ofBits_zero_f32, zero_add]
  refine Finset.sum_congr rfl fun k _ => ?_
  have e : idx_main_v17 (ix2 b (1023 : Fin 1024)) k = ix3 b (1023 : Fin 1024) k :=
    funext fun a => Fin.ext (by match a with | ⟨0, _⟩ => rfl | ⟨1, _⟩ => rfl | ⟨2, _⟩ => rfl)
  rw [e, v16_at]

/-- The normaliser broadcast back along the key axis. -/
theorem v19_at (b : Fin 16) (m : Fin 1024) :
    val_main_v19 (F := Ideal) x0 x1 (ix3 b (1023 : Fin 1024) m)
      = ∑ k : Fin 1024, Ideal.exp (lastScores x0 x1 b k - rowMax (lastScores x0 x1 b)) := by
  rw [val_main_v19_apply, val_main_v18_apply]
  have e : idx_main_v18 (idx_main_v19 (ix3 b (1023 : Fin 1024) m)) = ix2 b (1023 : Fin 1024) :=
    funext fun a => Fin.ext (by match a with | ⟨0, _⟩ => rfl | ⟨1, _⟩ => rfl)
  rw [e, v17_at]

/-- The attention weights of the last row. -/
theorem v20_at (b : Fin 16) (m : Fin 1024) :
    val_main_v20 (F := Ideal) x0 x1 (ix3 b (1023 : Fin 1024) m) = softmaxRow (lastScores x0 x1 b) m := by
  rw [val_main_v20_apply, v16_at, v19_at]
  rfl

/-! ## The gather by label, and the result -/

/-- The last contraction at (b, 1023, w): the total weight of the positions whose token is w. -/
theorem v21_at (b : Fin 16) (w : Fin 4096) :
    val_main_v21 (F := Ideal) x0 x1 (ix3 b (1023 : Fin 1024) w)
      = mix (tokRow x0 b) (softmaxRow (lastScores x0 x1 b)) w := by
  rw [val_main_v21_apply]
  unfold mix
  refine Finset.sum_congr rfl fun k _ => ?_
  have el : lidx_main_v21 (ix3 b (1023 : Fin 1024) w) k = ix3 b (1023 : Fin 1024) k :=
    funext fun a => Fin.ext (by match a with | ⟨0, _⟩ => rfl | ⟨1, _⟩ => rfl | ⟨2, _⟩ => rfl)
  have er : ridx_main_v21 (ix3 b (1023 : Fin 1024) w) k = ix3 b k w :=
    funext fun a => Fin.ext (by match a with | ⟨0, _⟩ => rfl | ⟨1, _⟩ => rfl | ⟨2, _⟩ => rfl)
  rw [el, er, v20_at, v0_at]

/-- The slice at row 1023 and the reshape read the last contraction at (b, 1023, w). -/
theorem v23_at (b : Fin 16) (w : Fin 4096) :
    val_main_v23 (F := Ideal) x0 x1 (ix2 b w) = val_main_v21 (F := Ideal) x0 x1 (ix3 b (1023 : Fin 1024) w) := by
  rw [val_main_v23_apply, val_main_v22_apply]
  have hb : b.val < 16 := b.isLt
  have hw : w.val < 4096 := w.isLt
  have e : idx_main_v22 (idx_main_v23 (ix2 b w)) = ix3 b (1023 : Fin 1024) w :=
    funext fun a => Fin.ext (by
      match a with
      | ⟨0, _⟩ => show (b.val * 4096 + w.val) / 4096 = b.val; omega
      | ⟨1, _⟩ => rfl
      | ⟨2, _⟩ => show (b.val * 4096 + w.val) % 4096 = w.val; omega)
  rw [e]

end Stages

/-- The reference's last stage is `G` of the token array and `R`. -/
theorem ref_eq (x0 : (⟨S16x1024, .i32⟩ : BufTy).Contents (Elt Ideal)) (x1 : (⟨S4096x4096, .f32⟩ : BufTy).Contents (Elt Ideal)) :
    val_main_v23 (F := Ideal) x0 x1 = G x0 x1 := by
  funext j
  obtain ⟨b, w, rfl⟩ : ∃ (b : Fin 16) (w : Fin 4096), j = ix2 b w := ⟨j 0, j 1, eq_ix2 j⟩
  rw [v23_at, v21_at]
  rfl

end Cert.LastRowAttn.Ref

end
-- ==== Proof.lean ====
/-
  One-hot causal self-attention, last query position only, over b = 16 rows of n = 1024 tokens with v = 4096 labels.

  The kernel gathers, per batch row, the row of R its last token names (a block of R indexed through a
  prefetched table), contracts it with the one-hot columns of the row's tokens, takes the softmax of the
  1024 scores and gathers the weights by label.  The reference builds the one-hot tensor X, the products
  X·R and (X·R)·Xᵀ, adds the causal mask, takes the softmax of every row, multiplies by X and keeps the
  last row.  At the last query position the mask is zero, the row of X·R is the row of R the last token
  selects, and the two computations are the same function `G` of the token array and R on the extended
  reals (format changes are the identity there, and the sums are the same sums).  The last token of each
  row is assumed to be a label in [0, 4096): it is the row index of R the kernel fetches.

  The frames are the generated ones (under the side condition the precondition gives); the idealization
  rewrote nothing; the kernel's value is read off its frame run, the reference's off its generated run.
-/
import proofs.«406636_j52055003628298_3_alg».proof.Defs
import proofs.«406636_j52055003628298_3_alg».proof.Proof.Gen.Kernel
import proofs.«406636_j52055003628298_3_alg».proof.Proof.Gen.Kernel.Skeleton
import proofs.«406636_j52055003628298_3_alg».proof.Proof.Gen.Kernel.Launch
import proofs.«406636_j52055003628298_3_alg».proof.Proof.Gen.Kernel.Points
import proofs.«406636_j52055003628298_3_alg».proof.Proof.Gen.Kernel.Frame
import proofs.«406636_j52055003628298_3_alg».proof.Proof.Gen.KernelIdeal
import proofs.«406636_j52055003628298_3_alg».proof.Proof.Gen.KernelIdeal.Skeleton
import proofs.«406636_j52055003628298_3_alg».proof.Proof.Gen.KernelIdeal.Launch
import proofs.«406636_j52055003628298_3_alg».proof.Proof.Gen.KernelIdeal.Points
import proofs.«406636_j52055003628298_3_alg».proof.Proof.Gen.KernelIdeal.Frame
import proofs.«406636_j52055003628298_3_alg».proof.Proof.Gen.ReferenceIdeal
import proofs.«406636_j52055003628298_3_alg».proof.Proof.Gen.ReferenceIdeal.Run
import proofs.«406636_j52055003628298_3_alg».proof.Proof.Gen.ReferenceIdeal.Read
import proofs.«406636_j52055003628298_3_alg».proof.Proof.Gen.Pre_finite_inputs
import proofs.«406636_j52055003628298_3_alg».proof.Proof.OkOfPreBits
import proofs.«406636_j52055003628298_3_alg».proof.Proof.OkOfPreIdeal
import proofs.«406636_j52055003628298_3_alg».proof.Proof.KernelValue
import proofs.«406636_j52055003628298_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs: its table-indexed blocks lie inside R because every last token is a label. -/
theorem frame_k : Cert.frame_Kernel := fun m ρ h =>
  Cert.Kernel.Gen.frame m ρ (Cert.LastRowAttn.OkBits.ok_of_pre m h)

/-- So does its idealization. -/
theorem frame_ki : Cert.frame_KernelIdeal := fun m ρ h =>
  Cert.KernelIdeal.Gen.frame m ρ (Cert.LastRowAttn.OkIdeal.ok_of_pre m h)

/-- The reference runs: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification `G` of the token array and R. -/
theorem algebraic : Cert.algebraic_KernelIdeal_ReferenceIdeal := by
  intro m ρ m' ρ' hpre hagree
  refine ⟨fun c => Cert.LastRowAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.LastRowAttn.KernelValue.run m ρ (Cert.LastRowAttn.OkIdeal.ok_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.LastRowAttn.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
